-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1081 : Shape := ⟨2, ![100000, 1081]⟩
abbrev S1081x32 : Shape := ⟨2, ![1081, 32]⟩
abbrev S32 : Shape := ⟨1, ![32]⟩
abbrev S32x8 : Shape := ⟨2, ![32, 8]⟩
abbrev S8 : Shape := ⟨1, ![8]⟩
abbrev S8x5 : Shape := ⟨2, ![8, 5]⟩
abbrev S5 : Shape := ⟨1, ![5]⟩
abbrev S2x3200000 : Shape := ⟨2, ![2, 3200000]⟩
abbrev S100000 : Shape := ⟨1, ![100000]⟩
abbrev S_ : Shape := ⟨0, ![]⟩

class Facts : Prop where
  bcast_S_S100000x1081 : S_.BroadcastsInDim S100000x1081 (![] : Fin 0 → Fin S100000x1081.rank)
  reducesTo_S100000x1081_S_d0_1 : S100000x1081.ReducesTo [0, 1] S_
  h_S_ : 0 < S_.numel
  bcast_S_S1081x32 : S_.BroadcastsInDim S1081x32 (![] : Fin 0 → Fin S1081x32.rank)
  reducesTo_S1081x32_S_d0_1 : S1081x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S8x5 : S_.BroadcastsInDim S8x5 (![] : Fin 0 → Fin S8x5.rank)
  reducesTo_S8x5_S_d0_1 : S8x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S8 .f32) (main_arg5 : FVec F S8x5 .f32) (main_arg6 : FVec F S5 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x5 .f32 := Host.absf main_arg5
  let main_cst_8 : FVec F S_ .f32 := constant S_ .f32 0x7F800000#32
  let main_v25 : FVec F S8x5 .f32 := broadcastInDim S8x5 ![] bcast_S_S8x5 main_cst_8
  let main_v26 : IVec S8x5 1 := cmpf .olt main_v24 main_v25
  let main_c_9 : IVec S_ 1 := constantI S_ 1 1#1
  let main_v27 : IVec S_ 1 := (fun x v => Host.reduce IntOp.andi x v reducesTo_S8x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x1081 .f32) (main_arg1 : FVec F S1081x32 .f32) (main_arg2 : FVec F S32 .f32) (main_arg3 : FVec F S32x8 .f32) (main_arg4 : FVec F S8 .f32) (main_arg5 : FVec F S8x5 .f32) (main_arg6 : FVec F S5 .f32) (main_arg7 : IVec S2x3200000 32) (main_arg8 : IVec S100000 32) : IVec S_ 1 :=
  let main_v0 : FVec F S100000x1081 .f32 := Host.absf main_arg0
  let main_cst : FVec F S_ .f32 := constant S_ .f32 0x7F800000#32
  let main_v1 : FVec F S100000x1081 .f32 := broadcastInDim S100000x1081 ![] bcast_S_S100000x1081 main_cst
  let main_v2 : IVec S100000x1081 1 := cmpf .olt main_v0 main_v1
  let main_c : IVec S_ 1 := constantI S_ 1 1#1
  let main_v3 : IVec S_ 1 := (fun x v => Host.reduce IntOp.andi x v reducesTo_S100000x1081_S_d0_1 h_S_) main_v2 main_c
  let main_v4 : FVec F S1081x32 .f32 := Host.absf main_arg1
  let main_cst_0 : FVec F S_ .f32 := constant S_ .f32 0x7F800000#32
  let main_v5 : FVec F S1081x32 .f32 := broadcastInDim S1081x32 ![] bcast_S_S1081x32 main_cst_0
  let main_v6 : IVec S1081x32 1 := cmpf .olt main_v4 main_v5
  let main_c_1 : IVec S_ 1 := constantI S_ 1 1#1
  let main_v7 : IVec S_ 1 := (fun x v => Host.reduce IntOp.andi x v reducesTo_S1081x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_v13 main_v16
-- ==== Kernel.lean ====
abbrev S100000x1081 : Shape := ⟨2, ![100000, 1081]⟩
abbrev S1081x32 : Shape := ⟨2, ![1081, 32]⟩
abbrev S32 : Shape := ⟨1, ![32]⟩
abbrev S32x8 : Shape := ⟨2, ![32, 8]⟩
abbrev S8 : Shape := ⟨1, ![8]⟩
abbrev S8x5 : Shape := ⟨2, ![8, 5]⟩
abbrev S5 : Shape := ⟨1, ![5]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S2000x1081 : Shape := ⟨2, ![2000, 1081]⟩
abbrev S2000x32 : Shape := ⟨2, ![2000, 32]⟩
abbrev S3300000x32 : Shape := ⟨2, ![3300000, 32]⟩
abbrev S1x32 : Shape := ⟨2, ![1, 32]⟩
abbrev S100000x8 : Shape := ⟨2, ![100000, 8]⟩
abbrev S2000x8 : Shape := ⟨2, ![2000, 8]⟩
abbrev S3300000x8 : Shape := ⟨2, ![3300000, 8]⟩
abbrev S1x8 : Shape := ⟨2, ![1, 8]⟩
abbrev S64x8 : Shape := ⟨2, ![64, 8]⟩
abbrev S100000x1 : Shape := ⟨2, ![100000, 1]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 110
  | .vmem => 10
  | .smem => 0
  | _ => 0

abbrev bufTy : (tb : Table) → Fin (tcTables nBuf tb) → BufTy
  | .hbm, ⟨0, _⟩ => ⟨S100000x1081, .f32⟩
  | .hbm, ⟨1, _⟩ => ⟨S1081x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S8x5, .f32⟩
  | .hbm, ⟨6, _⟩ => ⟨S5, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x32, .f32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S100000x8, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x8, .f32⟩
  | .hbm, ⟨78, _⟩ => ⟨S3300000x8, .f32⟩
  | .hbm, ⟨79, _⟩ => ⟨S3300000x8, .f32⟩
  | .hbm, ⟨80, _⟩ => ⟨S_, .f32⟩
  | .hbm, ⟨81, _⟩ => ⟨S100000x8, .f32⟩
  | .hbm, ⟨82, _⟩ => ⟨S3300000x1, .i32⟩
  | .hbm, ⟨83, _⟩ => ⟨S100000x8, .f32⟩
  | .hbm, ⟨84, _⟩ => ⟨S1x8, .f32⟩
  | .hbm, ⟨85, _⟩ => ⟨S100000x8, .f32⟩
  | .hbm, ⟨86, _⟩ => ⟨S100000x8, .f32⟩
  | .hbm, ⟨87, _⟩ => ⟨S_, .f32⟩
  | .hbm, ⟨88, _⟩ => ⟨S100000x8, .f32⟩
  | .hbm, ⟨89, _⟩ => ⟨S100000x8, .f32⟩
  | .hbm, ⟨90, _⟩ => ⟨S_, .f32⟩
  | .hbm, ⟨91, _⟩ => ⟨S64x8, .f32⟩
  | .hbm, ⟨92, _⟩ => ⟨S100000x1, .i32⟩
  | .hbm, ⟨93, _⟩ => ⟨S64x8, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S64, .f32⟩
  | .hbm, ⟨98, _⟩ => ⟨S100000x1, .i32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x8, .f32⟩
  | .hbm, ⟨105, _⟩ => ⟨S64x8, .f32⟩
  | .hbm, ⟨106, _⟩ => ⟨S64x5, .f32⟩
  | .hbm, ⟨107, _⟩ => ⟨S1x5, .f32⟩
  | .hbm, ⟨108, _⟩ => ⟨S64x5, .f32⟩
  | .hbm, ⟨109, _⟩ => ⟨S64x5, .f32⟩
  | .local _ .vmem, ⟨0, _⟩ => ⟨S2000x1081, .f32⟩
  | .local _ .vmem, ⟨1, _⟩ => ⟨S2000x1081, .f32⟩
  | .local _ .vmem, ⟨2, _⟩ => ⟨S1081x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x8, .f32⟩
  | .local _ .vmem, ⟨8, _⟩ => ⟨S2000x8, .f32⟩
  | .local _ .vmem, ⟨9, _⟩ => ⟨S2000x8, .f32⟩
  | _, _ => ⟨S100000x1081, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1081 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1081x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1081_S2000x1081_0_0 : ∀ a, (![0, 0] : Fin 2 → Nat) a + S2000x1081.size a ≤ S2000x1081.size a
  h_S2000x1081 : 0 < S2000x1081.numel
  bitsLt_bf16_f32 : FTy.bits .bf16 < FTy.bits .f32
  inb_S1081x32_S1081x32_0_0 : ∀ a, (![0, 0] : Fin 2 → Nat) a + S1081x32.size a ≤ S1081x32.size a
  h_S1081x32 : 0 < S1081x32.numel
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S2000x32_S2000x32 : S2000x32.ShapeCasts S2000x32
  inb_S32x8_S32x8_0_0 : ∀ a, (![0, 0] : Fin 2 → Nat) a + S32x8.size a ≤ S32x8.size a
  h_S32x8 : 0 < S32x8.numel
  inb_S2000x8_S2000x8_0_0 : ∀ a, (![0, 0] : Fin 2 → Nat) a + S2000x8.size a ≤ S2000x8.size a
  h_S2000x8 : 0 < S2000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1081_S1081x32_S2000x32_1_0_0_1_n_n_wf : DotDims.WF S2000x1081 S1081x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x8_S2000x8_1_0_0_1_n_n_wf : DotDims.WF S2000x32 S32x8 S2000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  dot_S64x8_S8x5_S64x5_1_0_0_1_n_n_wf : DotDims.WF S64x8 S8x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1081.size a ≤ S100000x1081.size a
  hwx0_0 : ∀ i : grid0.Coords, EltTy.bits .f32 = 32 ∨ (Rect.block (s := S100000x1081) S2000x1081.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1081x32.size a ≤ S1081x32.size a
  hwx0_1 : ∀ i : grid0.Coords, EltTy.bits .f32 = 32 ∨ (Rect.block (s := S1081x32) S1081x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x8.size a ≤ S32x8.size a
  hwx1_1 : ∀ i : grid1.Coords, EltTy.bits .f32 = 32 ∨ (Rect.block (s := S32x8) S32x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x8.size a ≤ S100000x8.size a
  hwx1_2 : ∀ i : grid1.Coords, EltTy.bits .f32 = 32 ∨ (Rect.block (s := S100000x8) S2000x8.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1081_S1081x32_S2000x32_1_0_0_1_n_n : DotDims S2000x1081 S1081x32 S2000x32 where
  lhsContracting := [1]
  rhsContracting := [0]
  lhsNonContracting := [0]
  rhsNonContracting := [1]
  lhsBatch := []
  rhsBatch := []
  wf := dot_S2000x1081_S1081x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x8_S2000x8_1_0_0_1_n_n : DotDims S2000x32 S32x8 S2000x8 where
  lhsContracting := [1]
  rhsContracting := [0]
  lhsNonContracting := [0]
  rhsNonContracting := [1]
  lhsBatch := []
  rhsBatch := []
  wf := dot_S2000x32_S32x8_S2000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x8_S8x5_S64x5_1_0_0_1_n_n : DotDims S64x8 S8x5 S64x5 where
  lhsContracting := [1]
  rhsContracting := [0]
  lhsNonContracting := [0]
  rhsNonContracting := [1]
  lhsBatch := []
  rhsBatch := []
  wf := dot_S64x8_S8x5_S64x5_1_0_0_1_n_n_wf

abbrev win0_0 : Pipeline.Window sig grid0 :=
  Pipeline.Window.ofSpec (Memref.whole main_arg0) S2000x1081.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1081x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1081 : Shape := ⟨2, ![100000, 1081]⟩
abbrev S1081x32 : Shape := ⟨2, ![1081, 32]⟩
abbrev S32 : Shape := ⟨1, ![32]⟩
abbrev S32x8 : Shape := ⟨2, ![32, 8]⟩
abbrev S8 : Shape := ⟨1, ![8]⟩
abbrev S8x5 : Shape := ⟨2, ![8, 5]⟩
abbrev S5 : Shape := ⟨1, ![5]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x8 : Shape := ⟨2, ![100000, 8]⟩
abbrev S3300000x8 : Shape := ⟨2, ![3300000, 8]⟩
abbrev S1x8 : Shape := ⟨2, ![1, 8]⟩
abbrev S64x8 : Shape := ⟨2, ![64, 8]⟩
abbrev S100000x1 : Shape := ⟨2, ![100000, 1]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 110
  | .vmem => 0
  | .smem => 0
  | _ => 0

abbrev bufTy : (tb : Table) → Fin (tcTables nBuf tb) → BufTy
  | .hbm, ⟨0, _⟩ => ⟨S100000x1081, .f32⟩
  | .hbm, ⟨1, _⟩ => ⟨S1081x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S8x5, .f32⟩
  | .hbm, ⟨6, _⟩ => ⟨S5, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x32, .f32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S100000x8, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x8, .f32⟩
  | .hbm, ⟨78, _⟩ => ⟨S3300000x8, .f32⟩
  | .hbm, ⟨79, _⟩ => ⟨S3300000x8, .f32⟩
  | .hbm, ⟨80, _⟩ => ⟨S_, .f32⟩
  | .hbm, ⟨81, _⟩ => ⟨S100000x8, .f32⟩
  | .hbm, ⟨82, _⟩ => ⟨S3300000x1, .i32⟩
  | .hbm, ⟨83, _⟩ => ⟨S100000x8, .f32⟩
  | .hbm, ⟨84, _⟩ => ⟨S1x8, .f32⟩
  | .hbm, ⟨85, _⟩ => ⟨S100000x8, .f32⟩
  | .hbm, ⟨86, _⟩ => ⟨S100000x8, .f32⟩
  | .hbm, ⟨87, _⟩ => ⟨S_, .f32⟩
  | .hbm, ⟨88, _⟩ => ⟨S100000x8, .f32⟩
  | .hbm, ⟨89, _⟩ => ⟨S100000x8, .f32⟩
  | .hbm, ⟨90, _⟩ => ⟨S_, .f32⟩
  | .hbm, ⟨91, _⟩ => ⟨S64x8, .f32⟩
  | .hbm, ⟨92, _⟩ => ⟨S100000x1, .i32⟩
  | .hbm, ⟨93, _⟩ => ⟨S64x8, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S64, .f32⟩
  | .hbm, ⟨98, _⟩ => ⟨S100000x1, .i32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x8, .f32⟩
  | .hbm, ⟨105, _⟩ => ⟨S64x8, .f32⟩
  | .hbm, ⟨106, _⟩ => ⟨S64x5, .f32⟩
  | .hbm, ⟨107, _⟩ => ⟨S1x5, .f32⟩
  | .hbm, ⟨108, _⟩ => ⟨S64x5, .f32⟩
  | .hbm, ⟨109, _⟩ => ⟨S64x5, .f32⟩
  | _, _ => ⟨S100000x1081, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1081_S1081x32_S100000x32_1_0_0_1_n_n_wf : DotDims.WF S100000x1081 S1081x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x8_S100000x8_1_0_0_1_n_n_wf : DotDims.WF S100000x32 S32x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  dot_S64x8_S8x5_S64x5_1_0_0_1_n_n_wf : DotDims.WF S64x8 S8x5 S64x5 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1081_S1081x32_S100000x32_1_0_0_1_n_n : DotDims S100000x1081 S1081x32 S100000x32 where
  lhsContracting := [1]
  rhsContracting := [0]
  lhsNonContracting := [0]
  rhsNonContracting := [1]
  lhsBatch := []
  rhsBatch := []
  wf := dot_S100000x1081_S1081x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x8_S8x5_S64x5_1_0_0_1_n_n : DotDims S64x8 S8x5 S64x5 where
  lhsContracting := [1]
  rhsContracting := [0]
  lhsNonContracting := [0]
  rhsNonContracting := [1]
  lhsBatch := []
  rhsBatch := []
  wf := dot_S64x8_S8x5_S64x5_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.BlockProduct.lean ====
/-
  One grid point's product, read at an entry.

  Each projection's body loads a `[2000, K]` block of the left operand and the whole `[K, N]` weight, rounds both to a
  narrower float format, multiplies them into a zero accumulator and stores the `[2000, N]` result. Over the extended
  reals the rounding is the identity, so entry `(p, q)` of what is stored is `∑ₖ x0(p, k) · x1(k, q)`; the second
  projection first casts its block to its own shape, which changes nothing.

  Also here: over the extended reals the host's matrix product is the kernel's product into a zero accumulator (both
  are the bare sum over the contracted index, nothing added).
-/
import proofs.«179372_j86277303042435_1_alg».proof.Proof.Gen.KernelIdeal.Skeleton
import proofs.«179372_j86277303042435_1_alg».proof.Proof.LibRowwise
import Idealize.ShloMosaic.PureOps.Ideal.Laws
import Idealize.ShloMosaic.Lib.ValueIdx
import Idealize.ShloMosaic.Lib.Pipeline.Value

set_option maxRecDepth 16384

noncomputable section

namespace Cert.KernelIdeal.BlockProduct

open Idealize.ShloMosaic Idealize.ShloMosaic.ValueIdx
open Cert.KernelIdeal Cert.KernelIdeal.Gen Cert.Lib.Rowwise

/-- Over the extended reals the host's matrix product is the kernel's product into a zero accumulator. -/
theorem dotGeneral_eq_matmul_zero {sl sr so : Shape} {φ₁ φ₂ : FTy} (d : DotDims sl sr so) (prec : Option ContractPrecision)
    (l : FVec Ideal sl φ₁) (r : FVec Ideal sr φ₂) :
    Host.dotGeneral d prec l r = FloatOps.matmul d prec l r (constant so .f32 0x00000000#32) :=
  funext fun j => by
    show FloatOps.dotGeneral d prec .single l r j = _
    rw [Ideal.dotGeneral_apply, Ideal.matmul_constant_zero_apply]

/-- The origin of a rank-2 block. -/
theorem hz : (![0, 0] : Fin 2 → Nat) = fun _ => 0 := funext fun a => by fin_cases a <;> rfl

/-- First projection (`K = 1081`, `N = 32`): entry `(p, q)` of the stored block is `∑ₖ x0(p, k) · x1(k, q)`. -/
theorem pay0_apply (x0 : Vec Ideal S2000x1081 .f32) (x1 : Vec Ideal S1081x32 .f32) (p : Fin 2000) (q : Fin 32) :
    k0_pay1 x0 x1 (ix2 p q) = ∑ k : Fin 1081, x0 (ix2 p k) * x1 (ix2 k q) := by
  unfold k0_pay1
  have hD : dot_S2000x1081_S1081x32_S2000x32_1_0_0_1_n_n = DotDims.plain 2000 1081 32 := eq_plain _ rfl rfl rfl rfl rfl rfl
  rw [hD]
  exact plain_matmul_zero_apply (M := 2000) (K := 1081) (N := 32) (φ₁ := .f32) (φ₂ := .f32) none x0 x1 p q

/-- Second projection (`K = 32`, `N = 8`): the same, the cast of the block to its own shape being the identity. -/
theorem pay1_apply (x0 : Vec Ideal S2000x32 .f32) (x1 : Vec Ideal S32x8 .f32) (p : Fin 2000) (q : Fin 8) :
    k1_pay1 x0 x1 (ix2 p q) = ∑ k : Fin 32, x0 (ix2 p k) * x1 (ix2 k q) := by
  unfold k1_pay1
  have hD : dot_S2000x32_S32x8_S2000x8_1_0_0_1_n_n = DotDims.plain 2000 32 8 := eq_plain _ rfl rfl rfl rfl rfl rfl
  rw [hD, shapeCast_self]
  exact plain_matmul_zero_apply (M := 2000) (K := 32) (N := 8) (φ₁ := .f32) (φ₂ := .f32) none x0 x1 p q

end Cert.KernelIdeal.BlockProduct

end
-- ==== Proof.RegionProduct0.lean ====
/-
  The first projection `x · W1` (`[100000, 1081] × [1081, 32]`) as its region computes it over the extended reals: a
  grid of fifty points, point `t` taking rows `2000 t … 2000 t + 1999` of the left operand and the whole weight and
  writing the `2000` rows of their product back to rows `2000 t …` of the output.

  Entry `(p, q)` of a block's product is `∑ₖ x(2000 t + p, k) · W(k, q)`, which is entry `(2000 t + p, q)` of the product
  of the whole arrays; the fifty row blocks tile the `100000` rows exactly (`50 · 2000 = 100000`), so when the grid is
  done the output array IS the whole product — the function the reference's single matrix product computes. Only the
  re-indexing of a finite sum is used (no distributivity, no cancellation), so the inputs need not be finite.

  Stated for any contents `V` of the buffers at the region's entry, so that the region can be read where @main
  reaches it.
-/
import proofs.«179372_j86277303042435_1_alg».proof.Proof.Gen.KernelIdeal.Frame
import proofs.«179372_j86277303042435_1_alg».proof.Proof.BlockProduct

set_option maxRecDepth 16384

noncomputable section

namespace Cert.KernelIdeal.RegionProduct0

open Idealize.ShloMosaic Idealize.ShloMosaic.TcCoe Idealize.ShloMosaic.ValueIdx Idealize.SL.Sem
open Cert.KernelIdeal Cert.KernelIdeal.Gen Cert.KernelIdeal.BlockProduct Cert.Lib.Rowwise
open Idealize.ShloMosaic.Pipeline (Dat)

variable (V : (c : Dev nD) → (b : Ref sig .tc) → Buf (Elt Ideal) ((c : Thread nD τ).loc b))

/-- The product of the whole left operand with the weight, as one array. -/
abbrev prod (D : DotDims S100000x1081 S1081x32 S100000x32) (a0 : FVec Ideal S100000x1081 .f32) (a1 : FVec Ideal S1081x32 .f32) :
    FVec Ideal S100000x32 .f32 := Host.dotGeneral D none a0 a1

/-- Entry `(r, q)` of the whole product is `∑ₖ a0(r, k) · a1(k, q)`. -/
theorem prod_apply (D : DotDims S100000x1081 S1081x32 S100000x32) (hD : D = DotDims.plain 100000 1081 32)
    (a0 : FVec Ideal S100000x1081 .f32) (a1 : FVec Ideal S1081x32 .f32) (r : Fin 100000) (q : Fin 32) :
    prod D a0 a1 (ix2 r q) = ∑ k : Fin 1081, a0 (ix2 r k) * a1 (ix2 k q) := by
  subst hD
  show Host.dotGeneral (DotDims.plain 100000 1081 32) none a0 a1 (ix2 r q) = _
  rw [dotGeneral_eq_matmul_zero]
  exact plain_matmul_zero_apply none a0 a1 r q

/-- The block indices over the grid: point `t` reads row block `t` of the left operand and the whole weight, and writes
    row block `t` of the result. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `2000 t … 2000 t + 1999` of the whole product of the arrays the region was
    entered with: row `p` of the block is row `2000 t + p` of the left operand against the same weight. -/
theorem flushed (c : Dev nD) (t : Fin cfg0.N) (D : DotDims S100000x1081 S1081x32 S100000x32) (hD : D = DotDims.plain 100000 1081 32) :
    (dat0 (F := Ideal) V c).flushed 2 t = ((cfg0.win 2).blk t).view.read (Elt Ideal) (prod D (V c main_arg0) (V c main_arg1)) := by
  show (cfg0.win 2).cut (grid0.coords t) ((dat0 V c).after 2 t) = _
  rw [after0_2]
  unfold out0_2
  rw [View.canon_unit_zero hz]
  simp only [View.ld_unit_zero (S := S2000x1081) hz, View.ld_unit_zero (S := S1081x32) hz]
  obtain ⟨e00, e01, e10, e11, e20, e21⟩ := idx t
  funext j
  obtain ⟨p, q, rfl⟩ : ∃ (p : Fin 2000) (q : Fin 32), j = ix2 p q := ⟨j 0, j 1, eq_ix2 j⟩
  have ht : t.val < 50 := lt_of_lt_of_eq t.isLt N_0
  have hr : t.val * 2000 + p.val < 100000 := by have := p.isLt; omega
  show k0_pay1 (iblk0 V c 0 t) (iblk0 V c 1 t) (ix2 p q)
    = prod D (V c main_arg0) (V c main_arg1) (((cfg0.win 2).blk t).view.emb (ix2 p q))
  have hemb : ((cfg0.win 2).blk t).view.emb (ix2 p q) = ix2 (⟨t.val * 2000 + p.val, hr⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 32 + 1 * q.val = q.val; omega
  rw [hemb]
  refine (pay0_apply (iblk0 V c 0 t) (iblk0 V c 1 t) p q).trans ((prod_apply D hD _ _ _ q).trans ?_).symm
  refine Finset.sum_congr rfl fun k _ => ?_
  have h0 : V c main_arg0 (ix2 (⟨t.val * 2000 + p.val, hr⟩ : Fin 100000) k) = iblk0 V c 0 t (ix2 p k) := by
    show _ = V c main_arg0 (((cfg0.win 0).blk t).view.emb (ix2 p k))
    refine congrArg _ (funext fun a => Fin.ext ?_)
    match a with
    | ⟨0, _⟩ => show t.val * 2000 + p.val = win0_0.index t (0 : Fin 2) * 2000 + 1 * p.val; omega
    | ⟨1, _⟩ => show k.val = win0_0.index t (1 : Fin 2) * 1081 + 1 * k.val; omega
  have h1 : V c main_arg1 (ix2 k q) = iblk0 V c 1 t (ix2 k q) := by
    show _ = V c main_arg1 (((cfg0.win 1).blk t).view.emb (ix2 k q))
    refine congrArg _ (funext fun a => Fin.ext ?_)
    match a with
    | ⟨0, _⟩ => show k.val = win0_1.index t (0 : Fin 2) * 1081 + 1 * k.val; omega
    | ⟨1, _⟩ => show q.val = win0_1.index t (1 : Fin 2) * 32 + 1 * q.val; omega
  rw [h0, h1]

/-- Row `r` of the result lies in the block of the grid point `r / 2000`: the fifty blocks tile the `100000` rows. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  let t : Fin cfg0.N := ⟨(i 0).val / 2000, lt_of_lt_of_eq (by omega : (i 0).val / 2000 < 50) N_0.symm⟩
  obtain ⟨-, -, -, -, e20, e21⟩ := idx t
  have e20' : win0_2.index t (0 : Fin 2) = (i 0).val / 2000 := e20
  refine ⟨t, flush0_2 t, ?_⟩
  show i ∈ ((View.whole main_v30).slice (win0_2.rect t)).set
  rw [View.set_slice_whole, Rect.mem_set_unit]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 32 ≤ (i 1).val ∧ (i 1).val < win0_2.index t (1 : Fin 2) * 32 + 32; omega

/-- After its fifty points the region's output array holds the whole product of the arrays it was entered with. -/
theorem arr (c : Dev nD) (D : DotDims S100000x1081 S1081x32 S100000x32) (hD : D = DotDims.plain 100000 1081 32) :
    (dat0 (F := Ideal) V c).arrAt 2 cfg0.N = prod D (V c main_arg0) (V c main_arg1) :=
  (dat0 V c).arrAt_eq_of_cover 2 _ (fun t _ => flushed V c t D hD) cover

end Cert.KernelIdeal.RegionProduct0

end
-- ==== Proof.KernelValue.lean ====
/-
  What the kernel's @main leaves in its result, over the extended reals.

  @main is host operations around two regions. Each region, entered with any buffer contents, leaves its two input
  arrays as they were and its output array at the whole product of the inputs (the row blocks tile the rows), and
  touches no other buffer: so its effect on the buffers is exactly that of ONE host matrix product writing the output
  array. Replacing both regions by that operation turns the fold of @main's segments into a fold of host operations
  only, whose value at the result buffer is the operations' composed term of the arguments — the reference's own term,
  operation for operation, the two dense projections included (the reference computes them by that very host product).
-/
import proofs.«179372_j86277303042435_1_alg».proof.Proof.KernelIdealRun
import proofs.«179372_j86277303042435_1_alg».proof.Proof.RegionProduct0
import proofs.«179372_j86277303042435_1_alg».proof.Proof.RegionProduct1
import proofs.«179372_j86277303042435_1_alg».proof.Proof.Gen.ReferenceIdeal.Read
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)
variable (D0 : DotDims S100000x1081 S1081x32 S100000x32) (D1 : DotDims S100000x32 S32x8 S100000x8)

/-- The first projection as one host operation: `main_v30 := main_arg0 · main_arg1`. -/
abbrev dotOp0 : HloOp τ sig (Elt Ideal) :=
  binary main_arg0 main_arg1 main_v30 ((fun l r => Host.dotGeneral (F := Ideal) (φ₁ := .f32) (φ₂ := .f32) D0 none l r) : (⟨S100000x1081, .f32⟩ : BufTy).Contents (Elt Ideal) → (⟨S1081x32, .f32⟩ : BufTy).Contents (Elt Ideal) → (⟨S100000x32, .f32⟩ : BufTy).Contents (Elt Ideal))

/-- The second projection as one host operation: `main_v47 := main_v46 · main_arg3`. -/
abbrev dotOp1 : HloOp τ sig (Elt Ideal) :=
  binary main_v46 main_arg3 main_v47 ((fun l r => Host.dotGeneral (F := Ideal) (φ₁ := .f32) (φ₂ := .f32) D1 none l r) : (⟨S100000x32, .f32⟩ : BufTy).Contents (Elt Ideal) → (⟨S32x8, .f32⟩ : BufTy).Contents (Elt Ideal) → (⟨S100000x8, .f32⟩ : BufTy).Contents (Elt Ideal))

/-- The buffers after the first region are the buffers at its entry after the one host product. -/
theorem W2_eq (hD0 : D0 = DotDims.plain 100000 1081 32) (c : Dev nD) : W2 m ρ c = after [dotOp0 D0] (W1 m ρ c) := by
  funext b
  show W2 m ρ c b = (dotOp0 D0).result (W1 m ρ c) b
  by_cases h : ∃ w, Proc.devRef .tc (Pipeline.arrRef spec0 w) = b
  · obtain ⟨w, rfl⟩ := h
    rw [W2_arr]
    match w with
    | ⟨0, _⟩ =>
      exact ((dat0 (V1 m ρ) c).arrAt_in 0 rfl _).trans ((A_eq0 (V1 m ρ) c 0).trans
        (binary_result_ne main_arg0 main_arg1 main_v30 _ _ _ _ (W1 m ρ c) (r := main_arg0) (by decide)).symm)
    | ⟨1, _⟩ =>
      exact ((dat0 (V1 m ρ) c).arrAt_in 1 rfl _).trans ((A_eq0 (V1 m ρ) c 1).trans
        (binary_result_ne main_arg0 main_arg1 main_v30 _ _ _ _ (W1 m ρ c) (r := main_arg1) (by decide)).symm)
    | ⟨2, _⟩ =>
      exact (RegionProduct0.arr (V1 m ρ) c D0 hD0).trans (binary_result main_arg0 main_arg1 main_v30 _ _ _ _ (W1 m ρ c)).symm
  · have hb : b ∉ (dotOp0 D0).writes := by
      show b ∉ ({Proc.devRef .tc main_v30} : Finset (DevRef τ sig))
      rw [Finset.mem_singleton]
      intro e
      exact h ⟨2, e.symm⟩
    rw [HloOp.result_of_not_mem _ _ hb]
    unfold W2 Pipeline.withArrays
    rw [dif_neg h]

/-- The buffers after the second region are the buffers at its entry after the one host product. -/
theorem W5_eq (hD1 : D1 = DotDims.plain 100000 32 8) (c : Dev nD) : W5 m ρ c = after [dotOp1 D1] (W4 m ρ c) := by
  funext b
  show W5 m ρ c b = (dotOp1 D1).result (W4 m ρ c) b
  by_cases h : ∃ w, Proc.devRef .tc (Pipeline.arrRef spec1 w) = b
  · obtain ⟨w, rfl⟩ := h
    rw [W5_arr]
    match w with
    | ⟨0, _⟩ =>
      exact ((dat1 (V4 m ρ) c).arrAt_in 0 rfl _).trans ((A_eq1 (V4 m ρ) c 0).trans
        (binary_result_ne main_v46 main_arg3 main_v47 _ _ _ _ (W4 m ρ c) (r := main_v46) (by decide)).symm)
    | ⟨1, _⟩ =>
      exact ((dat1 (V4 m ρ) c).arrAt_in 1 rfl _).trans ((A_eq1 (V4 m ρ) c 1).trans
        (binary_result_ne main_v46 main_arg3 main_v47 _ _ _ _ (W4 m ρ c) (r := main_arg3) (by decide)).symm)
    | ⟨2, _⟩ =>
      exact (RegionProduct1.arr (V4 m ρ) c D1 hD1).trans (binary_result main_v46 main_arg3 main_v47 _ _ _ _ (W4 m ρ c)).symm
  · have hb : b ∉ (dotOp1 D1).writes := by
      show b ∉ ({Proc.devRef .tc main_v47} : Finset (DevRef τ sig))
      rw [Finset.mem_singleton]
      intro e
      exact h ⟨2, e.symm⟩
    rw [HloOp.result_of_not_mem _ _ hb]
    unfold W5 Pipeline.withArrays
    rw [dif_neg h]

/-! ## The first stretch: the edge lists and the degree normalisation -/

/-- The message sources (edge sources, then every node for its self loop), read off the first stretch. -/
theorem pre_v3 (c : Dev nD) : W1 m ρ c (Proc.devRef .tc main_v3) = Cert.ReferenceIdeal.Read.val_main_v3 (F := Ideal) (m ((c.tc : Thread nD τ).loc main_arg7)) := by
  show after hostOps0 (W0 m ρ c) (Proc.devRef .tc main_v3) = _
  after_results_simp <;> rfl

/-- The aggregation targets (edge targets, then every node). -/
theorem pre_v6 (c : Dev nD) : W1 m ρ c (Proc.devRef .tc main_v6) = Cert.ReferenceIdeal.Read.val_main_v6 (F := Ideal) (m ((c.tc : Thread nD τ).loc main_arg7)) := by
  show after hostOps0 (W0 m ρ c) (Proc.devRef .tc main_v6) = _
  after_results_simp <;> rfl

/-- The per-edge weight `dinv[dst] · dinv[src]` with `dinv = rsqrt(max(deg, 1))`, as a column. -/
theorem pre_v29 (c : Dev nD) : W1 m ρ c (Proc.devRef .tc main_v29) = Cert.ReferenceIdeal.Read.val_main_v29 (F := Ideal) (m ((c.tc : Thread nD τ).loc main_arg7)) := by
  show after hostOps0 (W0 m ρ c) (Proc.devRef .tc main_v29) = _
  after_results_simp <;> rfl

/-- No host operation of the first stretch writes an argument: each of the eight read later is still what was
    launched (the edge list `main_arg7` is read only inside the first stretch). -/
theorem pre_args (c : Dev nD) :
    W1 m ρ c (Proc.devRef .tc main_arg0) = m ((c.tc : Thread nD τ).loc main_arg0)
    ∧ W1 m ρ c (Proc.devRef .tc main_arg1) = m ((c.tc : Thread nD τ).loc main_arg1)
    ∧ W1 m ρ c (Proc.devRef .tc main_arg2) = m ((c.tc : Thread nD τ).loc main_arg2)
    ∧ W1 m ρ c (Proc.devRef .tc main_arg3) = m ((c.tc : Thread nD τ).loc main_arg3)
    ∧ W1 m ρ c (Proc.devRef .tc main_arg4) = m ((c.tc : Thread nD τ).loc main_arg4)
    ∧ W1 m ρ c (Proc.devRef .tc main_arg5) = m ((c.tc : Thread nD τ).loc main_arg5)
    ∧ W1 m ρ c (Proc.devRef .tc main_arg6) = m ((c.tc : Thread nD τ).loc main_arg6)
    ∧ W1 m ρ c (Proc.devRef .tc main_arg8) = m ((c.tc : Thread nD τ).loc main_arg8) := by
  refine ⟨?_, ?_, ?_, ?_, ?_, ?_, ?_, ?_⟩ <;>
    (show after hostOps0 (W0 m ρ c) _ = _; after_results_simp <;> rfl)

/-! ## The reference's records for the two dense projections -/

/-- The reference's own records for its two dense projections: plain `[M, K] × [K, N]` products. -/
abbrev RD0 : DotDims S100000x1081 S1081x32 S100000x32 := Cert.ReferenceIdeal.dot_S100000x1081_S1081x32_S100000x32_1_0_0_1_n_n
abbrev RD1 : DotDims S100000x32 S32x8 S100000x8 := Cert.ReferenceIdeal.dot_S100000x32_S32x8_S100000x8_1_0_0_1_n_n
theorem hRD0 : RD0 = DotDims.plain 100000 1081 32 := Cert.Lib.Rowwise.eq_plain _ rfl rfl rfl rfl rfl rfl
theorem hRD1 : RD1 = DotDims.plain 100000 32 8 := Cert.Lib.Rowwise.eq_plain _ rfl rfl rfl rfl rfl rfl

/-! ## The rectifications

Each `relu` is a called function of three operations — the zero constant, its broadcast, the maximum — printed over
typed references to its call's buffers. Read as the plain buffers they are, its operations are these. -/

/-- The first rectification's three operations, with the function's typed references read as the buffers they are:
    `main_v46 := max(main_v45, 0)`. -/
theorem relu0_ops : (hostOps1_1 : List (HloOp τ sig (Elt Ideal))) =
    [ nullary main_call0_cst (constant (F := Ideal) S_ .f32 0x00000000#32 : (⟨S_, .f32⟩ : BufTy).Contents (Elt Ideal)),
      unary main_call0_cst main_call0_v0 (broadcastInDim S100000x32 ![] bcast_S_S100000x32 : (⟨S_, .f32⟩ : BufTy).Contents (Elt Ideal) → (⟨S100000x32, .f32⟩ : BufTy).Contents (Elt Ideal)),
      binary main_v45 main_call0_v0 main_v46 (maximumf (F := Ideal) (φ := .f32) : (⟨S100000x32, .f32⟩ : BufTy).Contents (Elt Ideal) → (⟨S100000x32, .f32⟩ : BufTy).Contents (Elt Ideal) → (⟨S100000x32, .f32⟩ : BufTy).Contents (Elt Ideal)) ] := rfl

/-- The second rectification's: `main_v63 := max(main_v62, 0)`. -/
theorem relu1_ops : (hostOps2_1 : List (HloOp τ sig (Elt Ideal))) =
    [ nullary main_call1_cst (constant (F := Ideal) S_ .f32 0x00000000#32 : (⟨S_, .f32⟩ : BufTy).Contents (Elt Ideal)),
      unary main_call1_cst main_call1_v0 (broadcastInDim S100000x8 ![] bcast_S_S100000x8 : (⟨S_, .f32⟩ : BufTy).Contents (Elt Ideal) → (⟨S100000x8, .f32⟩ : BufTy).Contents (Elt Ideal)),
      binary main_v62 main_call1_v0 main_v63 (maximumf (F := Ideal) (φ := .f32) : (⟨S100000x8, .f32⟩ : BufTy).Contents (Elt Ideal) → (⟨S100000x8, .f32⟩ : BufTy).Contents (Elt Ideal) → (⟨S100000x8, .f32⟩ : BufTy).Contents (Elt Ideal)) ] := rfl

/-! ## The result -/

set_option maxRecDepth 8192 in
set_option maxHeartbeats 4000000 in
/-- With both regions read as host products, everything after the first stretch is host operations over the edge lists,
    the edge weights and the arguments: the two graph convolutions, the rectifications, the per-graph mean and the last
    linear layer, composed exactly as the reference composes them. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    W8 m ρ c (Proc.devRef .tc main_v79) = Cert.ReferenceIdeal.Value.res_main_v79 (F := Ideal) m' c := by
  rw [Cert.ReferenceIdeal.Read.val_main_v79_eq, h0, h1, h2, h3, h4, h5, h6, h7, h8]
  show after hostOps2_2 (after hostOps2_1 (after hostOps2 (W5 m ρ c))) (Proc.devRef .tc main_v79) = _
  rw [W5_eq m ρ RD1 hRD1 c, relu1_ops]
  show after hostOps2_2 (after _ (after hostOps2 (after [dotOp1 RD1] (after hostOps1_1 (after hostOps1 (W2 m ρ c))))))
    (Proc.devRef .tc main_v79) = _
  rw [W2_eq m ρ RD0 hRD0 c, relu0_ops]
  obtain ⟨e0, e1, e2, e3, e4, e5, e6, e8⟩ := pre_args m ρ c
  have ev3 := pre_v3 m ρ c
  have ev6 := pre_v6 m ρ c
  have ev29 := pre_v29 m ρ c
  generalize W1 m ρ c = V1 at e0 e1 e2 e3 e4 e5 e6 e8 ev3 ev6 ev29 ⊢
  after_results_simp
  simp only [e0, e1, e2, e3, e4, e5, e6, e8, ev3, ev6, ev29]
  rfl

end Cert.KernelIdeal.KernelValue

end
-- ==== Proof.lean ====
/-
  A two-layer graph convolution network with mean pooling, `[100000, 1081]` node features over `3.2` million edges,
  against its plain reference. The kernel's program IS the reference's, operation for operation — the self loops, the
  degree normalisation `rsqrt(max(deg, 1))`, the gathers of message rows, the scatter-adds into target nodes, the biases,
  the two rectifications, the per-graph mean and the final linear layer — except that the two dense projections
  `x · W1` and `h · W2` are computed by grid kernels, fifty row blocks of `2000` at a time, where the reference calls one
  matrix product.

  Over the extended reals a row block of a product is the product of the row block (each entry is the same finite sum
  over `k`; the narrowing of the operands to another float format is the identity), and the blocks tile the rows exactly,
  so each region leaves in its output array what the reference's matrix product leaves there. Read so, the kernel's
  @main is a fold of the very host operations the reference runs, and the two results are one term of the arguments.
  No algebra beyond re-indexing a finite sum is used, so the inputs' finiteness is never opened.

  The frames are the generated ones (the reference's is its generated run with the result dropped); no operation was
  rewritten by the idealization, so there is nothing to preserve.
-/
import proofs.«179372_j86277303042435_1_alg».proof.Defs
import proofs.«179372_j86277303042435_1_alg».proof.Proof.Gen.Kernel
import proofs.«179372_j86277303042435_1_alg».proof.Proof.Gen.Kernel.Frame
import proofs.«179372_j86277303042435_1_alg».proof.Proof.Gen.KernelIdeal
import proofs.«179372_j86277303042435_1_alg».proof.Proof.Gen.KernelIdeal.Frame
import proofs.«179372_j86277303042435_1_alg».proof.Proof.Gen.ReferenceIdeal
import proofs.«179372_j86277303042435_1_alg».proof.Proof.Gen.ReferenceIdeal.Run
import proofs.«179372_j86277303042435_1_alg».proof.Proof.Gen.Pre_finite_inputs
import proofs.«179372_j86277303042435_1_alg».proof.Proof.KernelIdealRun
import proofs.«179372_j86277303042435_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the reference's term of the arguments: the reference by its run, the kernel
    because each of its two regions leaves the whole product in its output array. -/
theorem algebraic : Cert.algebraic_KernelIdeal_ReferenceIdeal := by
  intro m ρ m' ρ' _ hagree
  refine ⟨fun c => Cert.ReferenceIdeal.Value.res_main_v79 (F := Ideal) m' c, ?_, Cert.ReferenceIdeal.Value.run (F := Ideal) m' ρ'⟩
  refine (θ_run Cert.KernelIdeal.defs _ _).mono (fun r h c => ⟨(h c).1.trans ?_, (h c).2⟩)
    (Cert.KernelIdeal.Gen.run_named (F := Ideal) m ρ)
  obtain ⟨h0, h1, h2, h3, h4, h5, h6, h7, h8⟩ := hagree c
  exact Cert.KernelIdeal.KernelValue.result_eq m ρ m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
